-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2048x512 : Shape := ⟨2, ![2048, 512]⟩
abbrev S2048 : Shape := ⟨1, ![2048]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x512 .f32) (main_arg1 : FVec F S2048x512 .f32) (main_arg2 : FVec F S2048 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x512 : Shape := ⟨2, ![8192, 512]⟩
abbrev S2048x512 : Shape := ⟨2, ![2048, 512]⟩
abbrev S2048 : Shape := ⟨1, ![2048]⟩
abbrev S1x2048 : Shape := ⟨2, ![1, 2048]⟩
abbrev S8192x2048 : Shape := ⟨2, ![8192, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S2048x512, .f32⟩
  | .hbm, ⟨2, _⟩ => ⟨S2048, .f32⟩
  | .hbm, ⟨3, _⟩ => ⟨S1x2048, .f32⟩
  | .hbm, ⟨4, _⟩ => ⟨S8192x2048, .f32⟩
  | .local _ .vmem, ⟨0, _⟩ => ⟨S512x512, .f32⟩
  | .local _ .vmem, ⟨1, _⟩ => ⟨S512x512, .f32⟩
  | .local _ .vmem, ⟨2, _⟩ => ⟨S2048x512, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048_S1x2048 : S2048.ShapeCasts S1x2048
  inb_S512x512_S512x512_0_0 : ∀ a, (![0, 0] : Fin 2 → Nat) a + S512x512.size a ≤ S512x512.size a
  h_S512x512 : 0 < S512x512.numel
  inb_S2048x512_S2048x512_0_0 : ∀ a, (![0, 0] : Fin 2 → Nat) a + S2048x512.size a ≤ S2048x512.size a
  h_S2048x512 : 0 < S2048x512.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S512x512_S512 : S512x512.Reduces [1] S512
  shapeCasts_S512_S512x1 : S512.ShapeCasts S512x1
  reduces_S2048x512_S2048 : S2048x512.Reduces [1] S2048
  bitsLt_bf16_f32 : FTy.bits .bf16 < FTy.bits .f32
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x512 : Shape := ⟨2, ![8192, 512]⟩
abbrev S2048x512 : Shape := ⟨2, ![2048, 512]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S1x2048 : Shape := ⟨2, ![1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S2048x512, .f32⟩
  | .hbm, ⟨2, _⟩ => ⟨S2048, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S2048x512, .f32⟩
  | .hbm, ⟨8, _⟩ => ⟨S_, .f32⟩
  | .hbm, ⟨9, _⟩ => ⟨S2048, .f32⟩
  | .hbm, ⟨10, _⟩ => ⟨S8192x2048, .f32⟩
  | .hbm, ⟨11, _⟩ => ⟨S1x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  reducesTo_S2048x512_S2048_d1 : S2048x512.ReducesTo [1] S2048
  bcast_S2048_S1x2048_1 : S2048.BroadcastsInDim S1x2048 (![1] : Fin 1 → Fin S1x2048.rank)
  bcast_S8192x1_S8192x2048_0_1 : S8192x1.BroadcastsInDim S8192x2048 (![0, 1] : Fin 2 → Fin S8192x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  bcast_S_S2048 : S_.BroadcastsInDim S2048 (![] : Fin 0 → Fin S2048.rank)
  dot_S8192x512_S2048x512_S8192x2048_1_1_0_0_n_n_wf : DotDims.WF S8192x512 S2048x512 S8192x2048 [1] [1] [0] [0] [] []

variable [Facts₀]

def dot_S8192x512_S2048x512_S8192x2048_1_1_0_0_n_n : DotDims S8192x512 S2048x512 S8192x2048 where
  lhsContracting := [1]
  rhsContracting := [1]
  lhsNonContracting := [0]
  rhsNonContracting := [0]
  lhsBatch := []
  rhsBatch := []
  wf := dot_S8192x512_S2048x512_S8192x2048_1_1_0_0_n_n_wf

class Facts : Prop extends Facts₀ where

variable [Facts]
-- ==== Proof.RbfSpec.lean ====
/-
  The radial-basis response as ONE function of the three argument arrays, over the extended reals.

  For a batch row `b` and a centre `c` the squared distance is taken in its expanded form,
  `‖x_b‖² + ‖c_c‖² − 2·⟨x_b, c_c⟩`, clipped below at zero, negated, divided by `(2·σ_c)·σ_c` and exponentiated:

      rbf x c σ (b, c) = exp ( −max (Σ_k x[b,k]² + Σ_k c[c,k]² − 2·Σ_k x[b,k]·c[c,k]) 0  /  ((2·σ[c])·σ[c]) ).

  Both programs compute exactly this expression, operation for operation, so no algebraic law beyond `0 − a = −a` and
  `0 + a = a` is needed and finiteness of the inputs is never used: the three sums are the same sums, the quotient and the
  exponential are the extended reals' own (`Ideal.div`, `Ideal.exp`), whatever they answer at a zero width or an infinity.
  The factor `2` is kept as the binary32 word both programs print for it; it is never evaluated.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-- The factor two of the cross term and of the width: the binary32 word `0x40000000` read as an extended real. -/
abbrev two : EReal := Ideal.ofBits .f32 0x40000000#32

/-- The squared norm of row `r` of an `n × 512` array. -/
def sqNorm {n : Nat} (a : (⟨2, ![n, 512]⟩ : Shape).Idx → EReal) (r : Fin n) : EReal :=
  ∑ k : Fin 512, a (ix2 r k) * a (ix2 r k)

/-- The inner product of row `r` of one array with row `s` of another, both of width 512. -/
def inner {n n' : Nat} (a : (⟨2, ![n, 512]⟩ : Shape).Idx → EReal) (b : (⟨2, ![n', 512]⟩ : Shape).Idx → EReal)
    (r : Fin n) (s : Fin n') : EReal :=
  ∑ k : Fin 512, a (ix2 r k) * b (ix2 s k)

/-- One response from its four scalars: the two squared norms, the inner product and the width. -/
def resp (xx cc xc w : EReal) : EReal :=
  Ideal.exp (Ideal.div (-(max (xx + cc - two * xc) 0)) (two * w * w))

/-- The response array: entry `(b, c)` from row `b` of the inputs, row `c` of the centres and width `c`. -/
def rbf (x : (⟨2, ![8192, 512]⟩ : Shape).Idx → EReal) (c : (⟨2, ![2048, 512]⟩ : Shape).Idx → EReal)
    (σ : (⟨1, ![2048]⟩ : Shape).Idx → EReal) : (⟨2, ![8192, 2048]⟩ : Shape).Idx → EReal := fun i =>
  resp (sqNorm x (i 0)) (sqNorm c (i 1)) (inner x c (i 0) (i 1)) (σ (ix1 (i 1)))

/-- Subtracting from zero is negation on the extended reals (no corner: `0 − a` is `0 + (−a)`). -/
theorem zero_sub_eq_neg (a : EReal) : (0 : EReal) - a = -a := by
  rw [sub_eq_add_neg, zero_add]

end Cert.Rbf

end
-- ==== Proof.RefIsRbf.lean ====
/-
  The reference computes the radial-basis response `Cert.Rbf.rbf` of its three arguments.

  Its last stage is read at an index one operation at a time: the exponential of the quotient of the negated, clipped
  squared distance by the width term. The two squared norms are host sums along the feature axis from a zero initial value,
  re-laid by broadcasts that keep the row (resp. the centre) coordinate; the cross term is the contraction of the feature
  axes; the width term is `(2·σ)·σ` broadcast along the batch axis. Each composed index function of the reading is the
  obvious pair of coordinates, and the zero initial values drop out of the sums.
-/
import proofs.«153920_j67577015435739_1_alg».proof.Proof.Gen.ReferenceIdeal.Read
import proofs.«153920_j67577015435739_1_alg».proof.Proof.RbfSpec

noncomputable section

namespace Cert.Rbf.Ref

open Idealize.ShloMosaic Idealize.ShloMosaic.ValueIdx
open Cert.ReferenceIdeal Cert.ReferenceIdeal.Gen Cert.ReferenceIdeal.Read

/-- The row-sum of squares of the inputs is read at `(b, k)` whatever the centre coordinate. -/
theorem idx_xx (i : S8192x2048.Idx) (k : Fin 512) : idx_main_v1 (idx_main_v2 (idx_main_v7 i)) k = ix2 (i 0) k :=
  funext fun a => Fin.ext (by match a with | ⟨0, _⟩ => rfl | ⟨1, _⟩ => rfl)

/-- The row-sum of squares of the centres is read at `(c, k)` whatever the batch coordinate. -/
theorem idx_cc (i : S8192x2048.Idx) (k : Fin 512) : idx_main_v4 (idx_main_v6 (idx_main_v8 i)) k = ix2 (i 1) k :=
  funext fun a => Fin.ext (by match a with | ⟨0, _⟩ => rfl | ⟨1, _⟩ => rfl)

/-- The contraction reads the inputs at `(b, k)` … -/
theorem idx_l (i : S8192x2048.Idx) (k : Fin 512) : lidx_main_v5 i k = ix2 (i 0) k :=
  funext fun a => Fin.ext (by match a with | ⟨0, _⟩ => rfl | ⟨1, _⟩ => rfl)

/-- … and the centres at `(c, k)`. -/
theorem idx_r (i : S8192x2048.Idx) (k : Fin 512) : ridx_main_v5 i k = ix2 (i 1) k :=
  funext fun a => Fin.ext (by match a with | ⟨0, _⟩ => rfl | ⟨1, _⟩ => rfl)

/-- The width term is read at the centre coordinate. -/
theorem idx_w (i : S8192x2048.Idx) : idx_main_v19 (idx_main_v20 i) = ix1 (i 1) :=
  funext fun a => Fin.ext (by match a with | ⟨0, _⟩ => rfl)

/-- The reference's result, as its last stage, is the response array of its arguments. -/
theorem val_eq_rbf (x0 : (⟨S8192x512, .f32⟩ : BufTy).Contents (Elt Ideal)) (x1 : (⟨S2048x512, .f32⟩ : BufTy).Contents (Elt Ideal))
    (x2 : (⟨S2048, .f32⟩ : BufTy).Contents (Elt Ideal)) :
    val_main_v22 (F := Ideal) x0 x1 x2 = Cert.Rbf.rbf x0 x1 x2 := by
  funext i
  rw [val_main_v22_apply, val_main_v21_apply, val_main_v15_apply, val_main_v14_apply, val_main_v12_apply,
    val_main_v9_apply, val_main_v7_apply, val_main_v2_apply, val_main_v1_apply, val_main_v8_apply, val_main_v6_apply,
    val_main_v4_apply, val_main_v11_apply, val_main_v10_apply, val_main_v5_apply, val_main_v13_apply,
    val_main_v20_apply, val_main_v19_apply, val_main_v18_apply, val_main_v17_apply, val_main_v16_apply]
  simp only [val_main_v0_apply, val_main_v3_apply, val_main_cst_apply, val_main_cst_0_apply, val_main_cst_1_apply,
    val_main_cst_2_apply, val_main_cst_3_apply, idx_xx, idx_cc, idx_l, idx_r, idx_w,
    Ideal.hostUnary_exp_def, Ideal.hostDivf_def, Ideal.hostNegf_def, Ideal.negf_def, Ideal.maximumf_def, Ideal.subf_def,
    Ideal.addf_def, Ideal.mulf_def, Ideal.ofBits_def, Ideal.ofBits_zero_f32, zero_add]
  rfl

end Cert.Rbf.Ref

end
-- ==== Proof.RbfBody.lean ====
/-
  What the kernel body stores, read at one entry of its `512 × 2048` output block.

  From a block `x` of 512 input rows, the whole centre array `c` and the one-row width array `σ`, entry `(p, q)` of the
  stored value is the response `Cert.Rbf.resp` of four scalars: the squared norm of row `p` of `x` (a lane sum, turned
  into a column and spread along the centres), the squared norm of row `q` of `c` (a lane sum, turned into a row and
  spread along the batch), the inner product of those two rows (the matrix product contracting both feature axes, into a
  zero accumulator; the narrowing of the operands is the identity on the extended reals) and `σ` at `(0, q)`.
  The body writes the negation as `0 − ·`, which is the negation.
-/
import proofs.«153920_j67577015435739_1_alg».proof.Proof.Gen.KernelIdeal.Skeleton
import proofs.«153920_j67577015435739_1_alg».proof.Proof.RbfSpec
import Idealize.ShloMosaic.Lib.Pipeline.Value
import Idealize.ShloMosaic.Lib.ValueIdx
import Idealize.ShloMosaic.Lib.ValueLayout
import Idealize.ShloMosaic.PureOps.Ideal.Laws

noncomputable section

namespace Cert.Rbf.Body

open Idealize.ShloMosaic Idealize.ShloMosaic.ValueIdx
open Cert.KernelIdeal Cert.KernelIdeal.Gen

/-! ## The two squared norms, re-laid over the block -/

/-- The lane sums of a `512 × 512` block, made a column and spread over 2048 columns: at `(p, q)` the sum of row `p`. -/
theorem rowSum_spread_cols (v : FVec Ideal S512x512 .f32) (hr : S512x512.Reduces [1] S512) (hφ : FKind.Formats .f32)
    (hacc : (0x00000000#32 : BitVec 32) = 0x00000000#32) (hc : S512.ShapeCasts S512x1) (hb : S512x1.Broadcasts S512x2048)
    (p : Fin 512) (q : Fin 2048) :
    broadcastTo S512x2048 (shapeCast S512x1 (multiReduction (F := Ideal) .add [1] S512 v 0x00000000#32 hr hφ hacc) hc) hb (ix2 p q)
      = ∑ k : Fin 512, v (ix2 p k) := by
  refine (broadcastTo_apply _ hb (ix2 p q) (ix2 p (0 : Fin 1)) (fun a => by
    match a with
    | ⟨0, _⟩ => show p.val = if (512 : Nat) = 1 then 0 else p.val; rw [if_neg (by decide)]
    | ⟨1, _⟩ => show 0 = if (1 : Nat) = 1 then 0 else q.val; rw [if_pos rfl])).trans ?_
  refine (shapeCast_apply _ hc (ix2 p (0 : Fin 1)) (ix1 p) (by
    rw [Shape.rowMajor_val_one, Shape.rowMajor_val_two]
    show p.val = p.val * 1 + 0
    omega)).trans ?_
  refine (Ideal.multiReduction_add_single v 0x00000000#32 hr hφ hacc (ix1 p)).trans ?_
  exact Finset.sum_congr rfl fun k _ => congrArg v (funext fun a => Fin.ext (by match a with | ⟨0, _⟩ => rfl | ⟨1, _⟩ => rfl))

/-- The lane sums of the `2048 × 512` array, made a row and spread over 512 rows: at `(p, q)` the sum of row `q`. -/
theorem rowSum_spread_rows (v : FVec Ideal S2048x512 .f32) (hr : S2048x512.Reduces [1] S2048) (hφ : FKind.Formats .f32)
    (hacc : (0x00000000#32 : BitVec 32) = 0x00000000#32) (hc : S2048.ShapeCasts S1x2048) (hb : S1x2048.Broadcasts S512x2048)
    (p : Fin 512) (q : Fin 2048) :
    broadcastTo S512x2048 (shapeCast S1x2048 (multiReduction (F := Ideal) .add [1] S2048 v 0x00000000#32 hr hφ hacc) hc) hb (ix2 p q)
      = ∑ k : Fin 512, v (ix2 q k) := by
  refine (broadcastTo_1b_ab_apply _ hb p q).trans ?_
  refine (shapeCast_a_1a_apply _ hc (0 : Fin 1) q).trans ?_
  refine (Ideal.multiReduction_add_single v 0x00000000#32 hr hφ hacc (ix1 q)).trans ?_
  exact Finset.sum_congr rfl fun k _ => congrArg v (funext fun a => Fin.ext (by match a with | ⟨0, _⟩ => rfl | ⟨1, _⟩ => rfl))

/-! ## The cross term: a contraction of both feature axes -/

theorem lhs_axis0 (i : S512x2048.Idx) (k : dot_S512x512_S2048x512_S512x2048_1_1_0_0_n_n.contr.Idx) :
    (dot_S512x512_S2048x512_S512x2048_1_1_0_0_n_n.lhsIdx i k 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
theorem lhs_axis1 (i : S512x2048.Idx) (k : dot_S512x512_S2048x512_S512x2048_1_1_0_0_n_n.contr.Idx) :
    (dot_S512x512_S2048x512_S512x2048_1_1_0_0_n_n.lhsIdx i k 1).val = (k ⟨0, by decide⟩).val :=
  dot_S512x512_S2048x512_S512x2048_1_1_0_0_n_n.lhsIdx_val_of_single rfl i k
theorem rhs_axis0 (i : S512x2048.Idx) (k : dot_S512x512_S2048x512_S512x2048_1_1_0_0_n_n.contr.Idx) :
    (dot_S512x512_S2048x512_S512x2048_1_1_0_0_n_n.rhsIdx i k 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
theorem rhs_axis1 (i : S512x2048.Idx) (k : dot_S512x512_S2048x512_S512x2048_1_1_0_0_n_n.contr.Idx) :
    (dot_S512x512_S2048x512_S512x2048_1_1_0_0_n_n.rhsIdx i k 1).val = (k ⟨0, by decide⟩).val :=
  dot_S512x512_S2048x512_S512x2048_1_1_0_0_n_n.rhsIdx_val_of_single rfl i k

/-- The matrix product into a zero accumulator, at `(p, q)`: the sum over the feature index of row `p` of the left
    operand times row `q` of the right one (both operands are contracted along their second axis). -/
theorem cross_apply (a : FVec Ideal S512x512 .bf16) (b : FVec Ideal S2048x512 .bf16) (p : Fin 512) (q : Fin 2048) :
    matmul dot_S512x512_S2048x512_S512x2048_1_1_0_0_n_n none a b (constant (F := Ideal) S512x2048 .f32 0x00000000#32) (ix2 p q)
      = ∑ k : Fin 512, a (ix2 p k) * b (ix2 q k) := by
  simp only [matmul]
  rw [Ideal.matmul_constant_zero_apply, ← Equiv.sum_comp (ValueIdx.contrEquiv1 dot_S512x512_S2048x512_S512x2048_1_1_0_0_n_n 512 rfl rfl).symm]
  refine Finset.sum_congr rfl fun k _ => ?_
  have hk := ValueIdx.contrEquiv1_symm_val dot_S512x512_S2048x512_S512x2048_1_1_0_0_n_n 512 rfl rfl k
  have el : dot_S512x512_S2048x512_S512x2048_1_1_0_0_n_n.lhsIdx (ix2 p q) ((ValueIdx.contrEquiv1 dot_S512x512_S2048x512_S512x2048_1_1_0_0_n_n 512 rfl rfl).symm k) = ix2 p k := funext fun ax => Fin.ext (by
    match ax with
    | ⟨0, _⟩ => exact lhs_axis0 _ _
    | ⟨1, _⟩ => exact (lhs_axis1 _ _).trans hk)
  have er : dot_S512x512_S2048x512_S512x2048_1_1_0_0_n_n.rhsIdx (ix2 p q) ((ValueIdx.contrEquiv1 dot_S512x512_S2048x512_S512x2048_1_1_0_0_n_n 512 rfl rfl).symm k) = ix2 q k := funext fun ax => Fin.ext (by
    match ax with
    | ⟨0, _⟩ => exact rhs_axis0 _ _
    | ⟨1, _⟩ => exact (rhs_axis1 _ _).trans hk)
  rw [el, er]

/-! ## The stored value at an entry -/

/-- The body's last steps on four scalars that are already known: clipping, `0 − ·`, the quotient, the exponential. -/
theorem resp_of_parts {a b c d xx cc xc w : EReal} (ha : a = xx) (hb : b = cc) (hc : c = xc) (hd : d = Cert.Rbf.two * w * w) :
    Ideal.exp (Ideal.div (Ideal.ofBits .f32 0x00000000#32 - max (a + b - Cert.Rbf.two * c) (Ideal.ofBits .f32 0x00000000#32)) d)
      = Cert.Rbf.resp xx cc xc w := by
  subst ha hb hc hd
  unfold Cert.Rbf.resp
  rw [Ideal.ofBits_zero_f32, Cert.Rbf.zero_sub_eq_neg]

/-- Entry `(p, q)` of what the body stores, from its three loaded values. -/
theorem stored_apply (x : Vec Ideal S512x512 .f32) (c : Vec Ideal S2048x512 .f32) (σ : Vec Ideal S1x2048 .f32)
    (p : Fin 512) (q : Fin 2048) :
    k0_pay1 (F := Ideal) x c σ (ix2 p q)
      = Cert.Rbf.resp (∑ k : Fin 512, x (ix2 p k) * x (ix2 p k)) (∑ k : Fin 512, c (ix2 q k) * c (ix2 q k))
          (∑ k : Fin 512, x (ix2 p k) * c (ix2 q k)) (σ (ix2 (0 : Fin 1) q)) := by
  unfold k0_pay1
  refine resp_of_parts
    (rowSum_spread_cols (mulf x x) reduces_S512x512_S512 (.inl rfl) rfl shapeCasts_S512_S512x1 broadcasts_S512x1_S512x2048 p q)
    (rowSum_spread_rows (mulf c c) reduces_S2048x512_S2048 (.inl rfl) rfl shapeCasts_S2048_S1x2048 broadcasts_S1x2048_S512x2048 p q)
    (cross_apply (truncf .bf16 x bitsLt_bf16_f32) (truncf .bf16 c bitsLt_bf16_f32) p q)
    ((broadcastTo_1b_ab_apply _ broadcasts_S1x2048_S512x2048 p q).trans ?_)
  rw [shapeCast_self]
  rfl

end Cert.Rbf.Body

end
-- ==== Proof.RbfBlocks.lean ====
/-
  The kernel's result array after the run is the response array `Cert.Rbf.rbf` of the three arguments.

  The grid has 16 points along the batch axis. At point `t` the body sees rows `512·t … 512·t + 511` of the inputs, the
  whole centre array and the widths as one row (the host's re-laying of the width vector before the launch), and writes back
  rows `512·t … 512·t + 511` of the result, all 2048 columns. Entry `(p, q)` of what it writes is the response of input row
  `512·t + p` and centre `q`, which is the response array's entry under that place of the block; every row of the result
  lies in the block of point `row / 512`, so the sixteen blocks cover the array.
-/
import proofs.«153920_j67577015435739_1_alg».proof.Proof.Gen.KernelIdeal.Value
import proofs.«153920_j67577015435739_1_alg».proof.Proof.RbfBody
import Idealize.ShloMosaic.Lib.Pipeline.Value
import Idealize.ShloMosaic.Lib.StableHlo.Run
import Idealize.ShloMosaic.Lib.ValueLayout
import Idealize.ShloMosaic.Lib.Tactic

noncomputable section

namespace Cert.Rbf.Kernel

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

theorem zero_offsets : (![0, 0] : Fin 2 → Nat) = fun _ => 0 := funext fun a => by fin_cases a <;> rfl

/-- The block indices over the grid: the inputs and the result move with the point along the batch axis, the centres and
    the widths stay at block zero. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The response array of the arguments as launched, on core `c`. -/
abbrev result (c : Dev nD) : Buf (Elt Ideal) ((c : Thread nD τ).loc main_v1) :=
  Cert.Rbf.rbf (m ((c : Thread nD τ).loc main_arg0)) (m ((c : Thread nD τ).loc main_arg1)) (m ((c : Thread nD τ).loc main_arg2))

/-! ## The three input blocks at a point -/

/-- Row `p` of the inputs' block at point `t` is row `512·t + p` of the inputs. -/
theorem inputs_block (c : Dev nD) (t : Fin cfg0.N) (p k : Fin 512) (r : Fin 8192) (hr : r.val = t.val * 512 + p.val) :
    (iblk m c 0 t : Vec Ideal S512x512 .f32) (ix2 p k)
      = (m ((c : Thread nD τ).loc main_arg0) : S8192x512.Idx → EReal) (ix2 r k) := by
  obtain ⟨e0, e1, -⟩ := block_indices t
  unfold iblk
  rw [View.read_apply]
  show V m c main_arg0 _ = _
  refine (congrFun (V_main_arg0 m c) _).trans ?_
  refine congrArg (m ((c : Thread nD τ).loc main_arg0)) (funext fun a => Fin.ext ?_)
  match a with
  | ⟨0, _⟩ => show win0_0.index t (0 : Fin 2) * 512 + 1 * p.val = r.val; rw [e0, hr]; omega
  | ⟨1, _⟩ => show win0_0.index t (1 : Fin 2) * 512 + 1 * k.val = k.val; rw [e1]; omega

/-- The centres' block at any point is the whole centre array. -/
theorem centres_block (c : Dev nD) (t : Fin cfg0.N) (q : Fin 2048) (k : Fin 512) :
    (iblk m c 1 t : Vec Ideal S2048x512 .f32) (ix2 q k)
      = (m ((c : Thread nD τ).loc main_arg1) : S2048x512.Idx → EReal) (ix2 q k) := by
  obtain ⟨-, -, e2, e3, -⟩ := block_indices t
  unfold iblk
  rw [View.read_apply]
  show V m c main_arg1 _ = _
  refine (congrFun (V_main_arg1 m c) _).trans ?_
  refine congrArg (m ((c : Thread nD τ).loc main_arg1)) (funext fun a => Fin.ext ?_)
  match a with
  | ⟨0, _⟩ => show win0_1.index t (0 : Fin 2) * 2048 + 1 * q.val = q.val; rw [e2]; omega
  | ⟨1, _⟩ => show win0_1.index t (1 : Fin 2) * 512 + 1 * k.val = k.val; rw [e3]; omega

/-- The width row the region finds is the width vector re-laid as one row. -/
theorem widths_row (c : Dev nD) :
    (V m c main_v0 : S1x2048.Idx → EReal)
      = shapeCast S1x2048 (m ((c : Thread nD τ).loc main_arg2) : S2048.Idx → EReal) shapeCasts_S2048_S1x2048 := by
  dsimp only [V, hostOps0]; after_results; rfl

/-- The widths' block at any point, at `(0, q)`, is width `q`. -/
theorem widths_block (c : Dev nD) (t : Fin cfg0.N) (q : Fin 2048) :
    (iblk m c 2 t : Vec Ideal S1x2048 .f32) (ix2 (0 : Fin 1) q)
      = (m ((c : Thread nD τ).loc main_arg2) : S2048.Idx → EReal) (ix1 q) := by
  obtain ⟨-, -, -, -, e4, e5, -⟩ := block_indices t
  unfold iblk
  rw [View.read_apply]
  show V m c main_v0 _ = _
  rw [widths_row m c]
  have he : ((cfg0.win 2).blk t).view.emb (ix2 (0 : Fin 1) q) = ix2 (0 : Fin 1) q := funext fun a => Fin.ext (by
    match a with
    | ⟨0, _⟩ => show win0_2.index t (0 : Fin 2) * 1 + 1 * 0 = 0; rw [e4]
    | ⟨1, _⟩ => show win0_2.index t (1 : Fin 2) * 2048 + 1 * q.val = q.val; rw [e5]; omega)
  rw [he]
  exact shapeCast_a_1a_apply _ _ (0 : Fin 1) q

/-! ## What a point writes back -/

/-- Entry `(p, q)` of what the body stores at point `t` is the response array at row `512·t + p`, column `q`. -/
theorem stored_entry (c : Dev nD) (t : Fin cfg0.N) (p : Fin 512) (q : Fin 2048) (r : Fin 8192) (hr : r.val = t.val * 512 + p.val) :
    k0_pay1 (F := Ideal) (iblk m c 0 t) (iblk m c 1 t) (iblk m c 2 t) (ix2 p q) = result m c (ix2 r q) := by
  refine (Cert.Rbf.Body.stored_apply _ _ _ p q).trans ?_
  have h0 : ∀ k : Fin 512, (iblk m c 0 t : Vec Ideal S512x512 .f32) (ix2 p k)
      = (m ((c : Thread nD τ).loc main_arg0) : S8192x512.Idx → EReal) (ix2 r k) := fun k => inputs_block m c t p k r hr
  have h1 : ∀ k : Fin 512, (iblk m c 1 t : Vec Ideal S2048x512 .f32) (ix2 q k)
      = (m ((c : Thread nD τ).loc main_arg1) : S2048x512.Idx → EReal) (ix2 q k) := fun k => centres_block m c t q k
  simp only [h0, h1, widths_block m c t q]
  rfl

/-- What point `t` writes back is block `t` of the response array. -/
theorem flushed_eq (c : Dev nD) (t : Fin cfg0.N) :
    (dats m 0 c).flushed 3 t = ((cfg0.win 3).blk t).view.read (Elt Ideal) (result m c) := by
  rw [flushed3]
  unfold out0_3
  rw [View.canon_unit_zero zero_offsets]
  simp only [View.ld_unit_zero (S := S512x512) zero_offsets, View.ld_unit_zero (S := S2048x512) zero_offsets,
    View.ld_unit_zero (S := S1x2048) zero_offsets]
  obtain ⟨-, -, -, -, -, -, e6, e7⟩ := block_indices t
  have hN : cfg0.N = 16 := N_0
  funext j
  have hj0 : (j 0).val < 512 := (j 0).isLt
  have ht : t.val < 16 := hN ▸ t.isLt
  show k0_pay1 (F := Ideal) (iblk m c 0 t) (iblk m c 1 t) (iblk m c 2 t) j
      = result m c (((cfg0.win 3).blk t).view.emb j)
  have hj : (j : S512x2048.Idx) = ix2 (j 0) (j 1) := eq_ix2 j
  refine (congrArg (k0_pay1 (F := Ideal) (iblk m c 0 t) (iblk m c 1 t) (iblk m c 2 t)) hj).trans ?_
  refine (stored_entry m c t (j 0) (j 1) ⟨t.val * 512 + (j 0).val, by omega⟩ rfl).trans ?_
  refine congrArg (result m c) (funext fun a => Fin.ext ?_)
  match a with
  | ⟨0, _⟩ => show t.val * 512 + (j 0).val = win0_3.index t (0 : Fin 2) * 512 + 1 * (j 0).val; rw [e6]; omega
  | ⟨1, _⟩ => show (j 1).val = win0_3.index t (1 : Fin 2) * 2048 + 1 * (j 1).val; rw [e7]; omega

/-! ## The sixteen blocks cover the array -/

/-- An index of the result is in point `t`'s block iff each coordinate is in the block's range on its axis. -/
theorem mem_block (t : Fin cfg0.N) (i : S8192x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v1).slice (win0_3.rect t)).set ↔ _
  rw [View.set_slice_whole, Rect.mem_set_unit]
  exact Iff.rfl

/-- Row `r` of the result is written back by point `r / 512`. -/
theorem covered (i : S8192x2048.Idx) :
    ∃ t : Fin cfg0.N, (cfg0.win 3).flush t = true ∧ i ∈ ((cfg0.win 3).blk t).view.set := by
  have hi0 : (i 0).val < 8192 := (i 0).isLt
  have hi1 : (i 1).val < 2048 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, e6, e7⟩ := block_indices t
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    rw [e6, ht]; omega
  | ⟨1, _⟩ =>
    show win0_3.index t (1 : Fin 2) * 2048 ≤ (i 1).val ∧ (i 1).val < win0_3.index t (1 : Fin 2) * 2048 + 2048
    rw [e7]; omega

/-! ## The array after the run, and the run -/

/-- The result array ends holding the response array. -/
theorem final (c : Dev nD) : (dats m 0 c).arrAt 3 cfg0.N = result m c :=
  (dats m 0 c).arrAt_eq_of_cover 3 (result m c) (fun t _ => flushed_eq m c t) covered

/-- Every weakly fair execution of the idealized kernel terminates with the result at the response array of the
    arguments and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.Rbf.Kernel

end
-- ==== Proof.lean ====
/-
  A radial-basis layer: for 8192 input rows `x_b`, 2048 centres `c_c` (both of 512 features) and 2048 widths `σ_c`,

      out[b, c] = exp ( −max (‖x_b‖² + ‖c_c‖² − 2·⟨x_b, c_c⟩) 0  /  ((2·σ_c)·σ_c) ).

  The kernel computes it sixteen batch tiles of 512 rows at a time, each tile against the whole centre array: the two
  squared norms as lane sums, the cross term as a matrix product of the narrowed operands contracting both feature axes,
  the negation as `0 − ·`. The reference computes the same expression on whole arrays: host sums, a `dot_general`
  contracting the same two axes, a negation. Over the extended reals the narrowing is the identity, a lane sum and a host
  sum from zero are the same sum, a matrix product into a zero accumulator and the host's contraction are the same sum,
  and the two quotients and the two exponentials are one function each; so both programs end at the one array
  `Cert.Rbf.rbf` of their arguments (RbfSpec), entry by entry, and nothing is asked of the inputs.

  RbfBody reads the kernel body's stored value at an entry of its tile; RbfBlocks places the sixteen tiles in the result
  array; RefIsRbf reads the reference's last stage at an entry. The idealization rewrote no operation, so there is nothing
  to preserve; the two kernels' frames are the generated ones, and the reference's frame is its run with the value dropped.
-/
import proofs.«153920_j67577015435739_1_alg».proof.Defs
import proofs.«153920_j67577015435739_1_alg».proof.Proof.Gen.Kernel
import proofs.«153920_j67577015435739_1_alg».proof.Proof.Gen.Kernel.Skeleton
import proofs.«153920_j67577015435739_1_alg».proof.Proof.Gen.Kernel.Launch
import proofs.«153920_j67577015435739_1_alg».proof.Proof.Gen.Kernel.Points
import proofs.«153920_j67577015435739_1_alg».proof.Proof.Gen.Kernel.Frame
import proofs.«153920_j67577015435739_1_alg».proof.Proof.Gen.KernelIdeal
import proofs.«153920_j67577015435739_1_alg».proof.Proof.Gen.KernelIdeal.Skeleton
import proofs.«153920_j67577015435739_1_alg».proof.Proof.Gen.KernelIdeal.Launch
import proofs.«153920_j67577015435739_1_alg».proof.Proof.Gen.KernelIdeal.Points
import proofs.«153920_j67577015435739_1_alg».proof.Proof.Gen.KernelIdeal.Frame
import proofs.«153920_j67577015435739_1_alg».proof.Proof.Gen.ReferenceIdeal
import proofs.«153920_j67577015435739_1_alg».proof.Proof.Gen.Pre_finite_inputs
import proofs.«153920_j67577015435739_1_alg».proof.Proof.Gen.KernelIdeal.Value
import proofs.«153920_j67577015435739_1_alg».proof.Proof.Gen.ReferenceIdeal.Run
import proofs.«153920_j67577015435739_1_alg».proof.Proof.Gen.ReferenceIdeal.Read
import proofs.«153920_j67577015435739_1_alg».proof.Proof.RbfSpec
import proofs.«153920_j67577015435739_1_alg».proof.Proof.RefIsRbf
import proofs.«153920_j67577015435739_1_alg».proof.Proof.RbfBody
import proofs.«153920_j67577015435739_1_alg».proof.Proof.RbfBlocks
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were: its generated frame. -/
theorem frame_kernel : Cert.frame_Kernel := fun m ρ _ => Cert.Kernel.Gen.frame m ρ

/-- The same of the kernel read over the extended reals. -/
theorem frame_kernel_ideal : Cert.frame_KernelIdeal := fun m ρ _ => Cert.KernelIdeal.Gen.frame m ρ

/-- The reference is a straight line of host operations: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, the kernel's result array and the reference's both end at the
    response array of those arguments. -/
theorem algebraic : Cert.algebraic_KernelIdeal_ReferenceIdeal := by
  intro m ρ m' ρ' _ hagree
  refine ⟨fun c => Cert.Rbf.Kernel.result m c, Cert.Rbf.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.Rbf.Ref.val_eq_rbf, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
